-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S32x256x1 : Shape := ⟨3, ![32, 256, 1]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x256x1 : S_.BroadcastsInDim S32x256x1 (![] : Fin 0 → Fin S32x256x1.rank)
  reducesTo_S32x256x1_S_d0_1_2 : S32x256x1.ReducesTo [0, 1, 2] S_

variable [Facts]

def fn {F : FTy → Type} [FloatOps F] (main_arg0 : FVec F S32x256x512 .f32) (main_arg1 : FVec F S32x256x1 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x1 .f32 := Host.absf main_arg1
  let main_cst_0 : FVec F S_ .f32 := constant S_ .f32 0x7F800000#32
  let main_v5 : FVec F S32x256x1 .f32 := broadcastInDim S32x256x1 ![] bcast_S_S32x256x1 main_cst_0
  let main_v6 : IVec S32x256x1 1 := cmpf .olt main_v4 main_v5
  let main_c_1 : IVec S_ 1 := constantI S_ 1 1#1
  let main_v7 : IVec S_ 1 := (fun x v => Host.reduce IntOp.andi x v reducesTo_S32x256x1_S_d0_1_2 h_S_) main_v6 main_c_1
  let main_v8 : IVec S_ 1 := andi main_v3 main_v7
  main_v8
-- ==== Kernel.lean ====
abbrev S32x256x512 : Shape := ⟨3, ![32, 256, 512]⟩
abbrev S32x256x1 : Shape := ⟨3, ![32, 256, 1]⟩
abbrev S_ : Shape := ⟨0, ![]⟩
abbrev S32x256 : Shape := ⟨2, ![32, 256]⟩
abbrev S32x1x256 : Shape := ⟨3, ![32, 1, 256]⟩
abbrev S32x2048x512 : Shape := ⟨3, ![32, 2048, 512]⟩
abbrev S1x256x512 : Shape := ⟨3, ![1, 256, 512]⟩
abbrev S1x1x256 : Shape := ⟨3, ![1, 1, 256]⟩
abbrev S1x2048x512 : Shape := ⟨3, ![1, 2048, 512]⟩
abbrev S1x256 : Shape := ⟨2, ![1, 256]⟩
abbrev S2048x256 : Shape := ⟨2, ![2048, 256]⟩
abbrev S256x512 : Shape := ⟨2, ![256, 512]⟩
abbrev S2048x512 : Shape := ⟨2, ![2048, 512]⟩

abbrev nBuf : Space → Nat
  | .hbm => 23
  | .vmem => 8
  | .smem => 0
  | _ => 0

abbrev bufTy : (tb : Table) → Fin (tcTables nBuf tb) → BufTy
  | .hbm, ⟨0, _⟩ => ⟨S32x256x512, .f32⟩
  | .hbm, ⟨1, _⟩ => ⟨S32x256x1, .f32⟩
  | .hbm, ⟨2, _⟩ => ⟨S_, .f32⟩
  | .hbm, ⟨3, _⟩ => ⟨S32x256x1, .f32⟩
  | .hbm, ⟨4, _⟩ => ⟨S32x256x1, .i1⟩
  | .hbm, ⟨5, _⟩ => ⟨S32x256x1, .i32⟩
  | .hbm, ⟨6, _⟩ => ⟨S_, .f32⟩
  | .hbm, ⟨7, _⟩ => ⟨S32x256x1, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x1, .f32⟩
  | .hbm, ⟨13, _⟩ => ⟨S32x256x1, .i32⟩
  | .hbm, ⟨14, _⟩ => ⟨S32x256x1, .i32⟩
  | .hbm, ⟨15, _⟩ => ⟨S32x256, .i32⟩
  | .hbm, ⟨16, _⟩ => ⟨S_, .i32⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S32x1x256, .i32⟩
  | .hbm, ⟨21, _⟩ => ⟨S32x1x256, .i32⟩
  | .hbm, ⟨22, _⟩ => ⟨S32x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x1x256, .i32⟩
  | .local _ .vmem, ⟨3, _⟩ => ⟨S1x1x256, .i32⟩
  | .local _ .vmem, ⟨4, _⟩ => ⟨S1x1x256, .i32⟩
  | .local _ .vmem, ⟨5, _⟩ => ⟨S1x1x256, .i32⟩
  | .local _ .vmem, ⟨6, _⟩ => ⟨S1x2048x512, .f32⟩
  | .local _ .vmem, ⟨7, _⟩ => ⟨S1x2048x512, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x256x1 : S_.BroadcastsInDim S32x256x1 (![] : Fin 0 → Fin S32x256x1.rank)
  natLt_1_32 : 1 < 32
  shapeCasts_S32x256x1_S32x256 : S32x256x1.ShapeCasts S32x256
  bcast_S_S_ : S_.BroadcastsInDim S_ (![] : Fin 0 → Fin S_.rank)
  reduceWindows_S32x256_S32x256_w1s1p0_0_w256s1p255_0 : S32x256.ReduceWindows (![1, 256] : Fin 2 → Nat) ![1, 1] ![0, 255] ![0, 0] S32x256
  h_S_ : 0 < S_.numel
  shapeCasts_S32x256_S32x1x256 : S32x256.ShapeCasts S32x1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  iota_S2048x256_d0_w32 : S2048x256.Iotas .tc 32 [0]
  shapeCasts_S1x256_S1x256 : S1x256.ShapeCasts S1x256
  broadcasts_S1x256_S2048x256 : S1x256.Broadcasts S2048x256
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x256x512.size a
  hwx0_0 : ∀ i : grid0.Coords, EltTy.bits .f32 = 32 ∨ (Rect.block (s := S32x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .i32 = 32 ∨ (Rect.block (s := S32x1x256) S1x1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x256.size a
  hwx0_2 : ∀ i : grid0.Coords, EltTy.bits .i32 = 32 ∨ (Rect.block (s := S32x1x256) S1x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S32x2048x512.size a
  hwx0_3 : ∀ i : grid0.Coords, EltTy.bits .f32 = 32 ∨ (Rect.block (s := S32x2048x512) S1x2048x512.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x512 : Shape := ⟨3, ![32, 256, 512]⟩
abbrev S32x256x1 : Shape := ⟨3, ![32, 256, 1]⟩
abbrev S_ : Shape := ⟨0, ![]⟩
abbrev S32x256 : Shape := ⟨2, ![32, 256]⟩
abbrev S2048 : Shape := ⟨1, ![2048]⟩
abbrev S1x2048x1 : Shape := ⟨3, ![1, 2048, 1]⟩
abbrev S32x1x256 : Shape := ⟨3, ![32, 1, 256]⟩
abbrev S32x2048x256 : Shape := ⟨3, ![32, 2048, 256]⟩
abbrev S32x2048x512 : Shape := ⟨3, ![32, 2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x1, .f32⟩
  | .hbm, ⟨2, _⟩ => ⟨S_, .f32⟩
  | .hbm, ⟨3, _⟩ => ⟨S32x256x1, .f32⟩
  | .hbm, ⟨4, _⟩ => ⟨S32x256x1, .i1⟩
  | .hbm, ⟨5, _⟩ => ⟨S32x256x1, .i32⟩
  | .hbm, ⟨6, _⟩ => ⟨S_, .f32⟩
  | .hbm, ⟨7, _⟩ => ⟨S32x256x1, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x1, .f32⟩
  | .hbm, ⟨13, _⟩ => ⟨S32x256x1, .i32⟩
  | .hbm, ⟨14, _⟩ => ⟨S32x256x1, .i32⟩
  | .hbm, ⟨15, _⟩ => ⟨S32x256, .i32⟩
  | .hbm, ⟨16, _⟩ => ⟨S_, .i32⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S2048, .i32⟩
  | .hbm, ⟨21, _⟩ => ⟨S1x2048x1, .i32⟩
  | .hbm, ⟨22, _⟩ => ⟨S32x1x256, .i32⟩
  | .hbm, ⟨23, _⟩ => ⟨S32x2048x256, .i32⟩
  | .hbm, ⟨24, _⟩ => ⟨S32x2048x256, .i32⟩
  | .hbm, ⟨25, _⟩ => ⟨S32x2048x256, .i1⟩
  | .hbm, ⟨26, _⟩ => ⟨S32x1x256, .i32⟩
  | .hbm, ⟨27, _⟩ => ⟨S32x2048x256, .i32⟩
  | .hbm, ⟨28, _⟩ => ⟨S32x2048x256, .i32⟩
  | .hbm, ⟨29, _⟩ => ⟨S32x2048x256, .i1⟩
  | .hbm, ⟨30, _⟩ => ⟨S32x2048x256, .i1⟩
  | .hbm, ⟨31, _⟩ => ⟨S32x2048x256, .f32⟩
  | .hbm, ⟨32, _⟩ => ⟨S32x2048x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S32x256x1 : S_.BroadcastsInDim S32x256x1 (![] : Fin 0 → Fin S32x256x1.rank)
  natLt_1_32 : 1 < 32
  shapeCasts_S32x256x1_S32x256 : S32x256x1.ShapeCasts S32x256
  bcast_S_S_ : S_.BroadcastsInDim S_ (![] : Fin 0 → Fin S_.rank)
  reduceWindows_S32x256_S32x256_w1s1p0_0_w256s1p255_0 : S32x256.ReduceWindows (![1, 256] : Fin 2 → Nat) ![1, 1] ![0, 255] ![0, 0] S32x256
  h_S_ : 0 < S_.numel
  bcast_S2048_S1x2048x1_1 : S2048.BroadcastsInDim S1x2048x1 (![1] : Fin 1 → Fin S1x2048x1.rank)
  bcast_S32x256_S32x1x256_0_2 : S32x256.BroadcastsInDim S32x1x256 (![0, 2] : Fin 2 → Fin S32x1x256.rank)
  bcast_S1x2048x1_S32x2048x256_0_1_2 : S1x2048x1.BroadcastsInDim S32x2048x256 (![0, 1, 2] : Fin 3 → Fin S32x2048x256.rank)
  bcast_S32x1x256_S32x2048x256_0_1_2 : S32x1x256.BroadcastsInDim S32x2048x256 (![0, 1, 2] : Fin 3 → Fin S32x2048x256.rank)
  dot_S32x2048x256_S32x256x512_S32x2048x512_2_1_1_2_0_0_wf : DotDims.WF S32x2048x256 S32x256x512 S32x2048x512 [2] [1] [1] [2] [0] [0]

variable [Facts₀]

def dot_S32x2048x256_S32x256x512_S32x2048x512_2_1_1_2_0_0 : DotDims S32x2048x256 S32x256x512 S32x2048x512 where
  lhsContracting := [2]
  rhsContracting := [1]
  lhsNonContracting := [1]
  rhsNonContracting := [2]
  lhsBatch := [0]
  rhsBatch := [0]
  wf := dot_S32x2048x256_S32x256x512_S32x2048x512_2_1_1_2_0_0_wf

class Facts : Prop extends Facts₀ where

variable [Facts]
-- ==== Proof.Spec.lean ====
/-
  Length regulation as ONE function of the two argument arrays, index by index.

  A phoneme `p` of batch row `b` has a duration `d[b,p]`: the integer part of `2 ^ ld[b,p] + 1e-4`, kept where
  `ld[b,p] > 0` and zero elsewhere. Its frames are the half-open interval `[s[b,p], e[b,p])`, where `e` is the running
  sum of the durations along `p` and `s = e - d`. The regulated sequence repeats each phoneme's encoder row over its
  frames:

      out[b,t,c] = Σ_p  [ s[b,p] ≤ t < e[b,p] ] · enc[b,p,c] ,     t < 2048 .

  Both programs compute `d`, `e`, `s` by the same operations of `ld` (32-bit words throughout, the comparisons signed),
  so those are carried here as three functions that nothing below opens; what differs between the programs is only how the
  indicator becomes a number (a bit widened to a word and read signed, against a bit read unsigned) and how the sum over
  `p` is arranged (one product per batch row against one batched product): `widened_bit` is the first, and the second is no
  difference at all once both are sums over `p : Fin 256`.
-/
import Idealize.ShloMosaic.PureOps
import Idealize.ShloMosaic.PureOps.Ideal
import Idealize.ShloMosaic.PureOps.Ideal.Laws
import Idealize.ShloMosaic.Lib.ValueIdx

noncomputable section

namespace Cert.LengthReg

open Idealize.ShloMosaic Idealize.ShloMosaic.ValueIdx

/-- Encoder output `[B, P, C]`, log-durations `[B, P, 1]`, per-phoneme words `[B, P]`, regulated output `[B, T, C]`. -/
abbrev SEnc : Shape := ⟨3, ![32, 256, 512]⟩
abbrev SLd : Shape := ⟨3, ![32, 256, 1]⟩
abbrev SDur : Shape := ⟨2, ![32, 256]⟩
abbrev SOut : Shape := ⟨3, ![32, 2048, 512]⟩
abbrev S0 : Shape := ⟨0, ![]⟩

/-! ## Durations, interval ends and interval starts: functions of the log-durations -/

/-- `d[b,p] = ⌊2 ^ ld[b,p] + 1e-4⌋` as a 32-bit word, times the bit `ld[b,p] > 0` widened to a word. -/
def durations (hb : S0.BroadcastsInDim SLd (![] : Fin 0 → Fin SLd.rank)) (hlt : 1 < 32) (hc : SLd.ShapeCasts SDur)
    (ld : FVec Ideal SLd .f32) : IVec SDur 32 :=
  shapeCast SDur
    (muli
      (fptosi (F := Ideal) 32 (Host.floor (addf (Host.powf (broadcastInDim SLd ![] hb (constant (F := Ideal) S0 .f32 0x40000000#32)) ld)
        (broadcastInDim SLd ![] hb (constant (F := Ideal) S0 .f32 0x38D1B717#32)))))
      (extui 32 (cmpf .ogt ld (broadcastInDim SLd ![] hb (constant (F := Ideal) S0 .f32 0x00000000#32))) hlt)) hc

/-- `e[b,p] = d[b,0] + … + d[b,p]`: the sum over a window of 256 positions ending at `p`, zero before the row's start. -/
def ends (hbb : S0.BroadcastsInDim S0 (![] : Fin 0 → Fin S0.rank))
    (hrw : SDur.ReduceWindows (![1, 256] : Fin 2 → Nat) ![1, 1] ![0, 255] ![0, 0] SDur) (h0 : 0 < S0.numel)
    (d : IVec SDur 32) : IVec SDur 32 :=
  Host.reduceWindow IntOp.addi ![1, 256] ![1, 1] ![0, 255] ![0, 0] d (broadcastInDim S0 ![] hbb (constantI S0 32 0#32)) hrw h0

/-- `s[b,p] = e[b,p] - d[b,p]`. -/
def starts (e d : IVec SDur 32) : IVec SDur 32 := subi e d

/-! ## The indicator of a phoneme's frames, and the regulated array -/

/-- The bit `s ≤ t < e`, the frame number `t` as a 32-bit word and both comparisons signed. -/
def inside (s e : BitVec 32) (t : Fin 2048) : BitVec 1 :=
  IntOp.andi (IntOp.cmpi .sge (BitVec.ofNat 32 t.val) s) (IntOp.cmpi .slt (BitVec.ofNat 32 t.val) e)

/-- That bit as a number: `1` on the phoneme's frames, `0` off them. -/
def weight (s e : BitVec 32) (t : Fin 2048) : EReal := FloatOps.uitofp (F := Ideal) .f32 (inside s e t)

/-- `out[b,t,c] = Σ_p weight(s[b,p], e[b,p], t) · enc[b,p,c]`. -/
def regulatedAt (enc : SEnc.Idx → EReal) (s e : SDur.Idx → BitVec 32) (b : Fin 32) (t : Fin 2048) (c : Fin 512) : EReal :=
  ∑ p : Fin 256, weight (s (ix2 b p)) (e (ix2 b p)) t * enc (ix3 b p c)

/-- The regulated array. -/
def regulated (enc : SEnc.Idx → EReal) (s e : SDur.Idx → BitVec 32) : SOut.Idx → EReal :=
  fun i => regulatedAt enc s e (i 0) (i 1) (i 2)

/-- A bit widened to a 32-bit word by zeros and then read as a SIGNED integer is the bit read unsigned: the word is `0` or
    `1`, whose sign bit is clear. -/
theorem widened_bit (b : BitVec 1) :
    FloatOps.sitofp (F := Ideal) .f32 (b.setWidth 32) = FloatOps.uitofp (F := Ideal) .f32 b := by
  have hb : b = 0#1 ∨ b = 1#1 := by revert b; decide
  rcases hb with rfl | rfl
  · show (((BitVec.setWidth 32 (0#1 : BitVec 1)).toInt : ℝ) : EReal) = ((((0#1 : BitVec 1)).toNat : ℝ) : EReal)
    rw [show (BitVec.setWidth 32 (0#1 : BitVec 1)).toInt = 0 from by decide, show ((0#1 : BitVec 1)).toNat = 0 from by decide]
    simp
  · show (((BitVec.setWidth 32 (1#1 : BitVec 1)).toInt : ℝ) : EReal) = ((((1#1 : BitVec 1)).toNat : ℝ) : EReal)
    rw [show (BitVec.setWidth 32 (1#1 : BitVec 1)).toInt = 1 from by decide, show ((1#1 : BitVec 1)).toNat = 1 from by decide]
    simp

end Cert.LengthReg

end
-- ==== Proof.KernelPayload.lean ====
/-
  The kernel body's one stored value, read at an index.

  At a grid point the body loads the batch row's interval starts and ends (`[1, 1, 256]` words each) and its encoder
  block (`[1, 256, 512]`), builds the `[2048, 256]` indicator `s[p] ≤ t < e[p]` from an iota along the rows and the two
  rows of words broadcast down the rows, turns it into numbers (bit → word → signed integer → float, then a change of
  float format, which is the identity on the extended reals), and multiplies it into the encoder block with a zero
  accumulator. So entry `(t, c)` of what it stores is

      Σ_p  weight(s[p], e[p], t) · enc[p, c] ,

  the sum over the product's one contracted axis re-indexed by `p : Fin 256`.
-/
import proofs.«137529_j65644280152320_1_alg».proof.Proof.Gen.KernelIdeal.Skeleton
import proofs.«137529_j65644280152320_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open Cert.LengthReg (inside weight widened_bit)

/-! ## The product's operand indices: rows × contraction, contraction × columns -/

theorem lhs_row (j : S2048x512.Idx) (k : dot_S2048x256_S256x512_S2048x512_1_0_0_1_n_n.contr.Idx) :
    (dot_S2048x256_S256x512_S2048x512_1_0_0_1_n_n.lhsIdx j k 0 : ℕ) = j 0 := by
  simp [DotDims.lhsIdx, dot_S2048x256_S256x512_S2048x512_1_0_0_1_n_n]; rfl
theorem lhs_col (j : S2048x512.Idx) (k : dot_S2048x256_S256x512_S2048x512_1_0_0_1_n_n.contr.Idx) :
    (dot_S2048x256_S256x512_S2048x512_1_0_0_1_n_n.lhsIdx j k 1 : ℕ) = k ⟨0, by decide⟩ := by
  simp [DotDims.lhsIdx, dot_S2048x256_S256x512_S2048x512_1_0_0_1_n_n]; rfl
theorem rhs_row (j : S2048x512.Idx) (k : dot_S2048x256_S256x512_S2048x512_1_0_0_1_n_n.contr.Idx) :
    (dot_S2048x256_S256x512_S2048x512_1_0_0_1_n_n.rhsIdx j k 0 : ℕ) = k ⟨0, by decide⟩ := by
  simp [DotDims.rhsIdx, dot_S2048x256_S256x512_S2048x512_1_0_0_1_n_n]; rfl
theorem rhs_col (j : S2048x512.Idx) (k : dot_S2048x256_S256x512_S2048x512_1_0_0_1_n_n.contr.Idx) :
    (dot_S2048x256_S256x512_S2048x512_1_0_0_1_n_n.rhsIdx j k 1 : ℕ) = j 1 := by
  simp [DotDims.rhsIdx, dot_S2048x256_S256x512_S2048x512_1_0_0_1_n_n]; rfl

/-- The one contracted axis has the 256 phonemes as its positions. -/
def phonemes : dot_S2048x256_S256x512_S2048x512_1_0_0_1_n_n.contr.Idx ≃ Fin 256 :=
  contrEquiv1 dot_S2048x256_S256x512_S2048x512_1_0_0_1_n_n 256 (by decide) (by decide)

theorem phonemes_symm_val (p : Fin 256) : ((phonemes.symm p) ⟨0, by decide⟩ : ℕ) = p.val :=
  contrEquiv1_symm_val dot_S2048x256_S256x512_S2048x512_1_0_0_1_n_n 256 (by decide) (by decide) p

/-- At output entry `(t, c)` and phoneme `p` the left operand is read at `(t, p)` and the right one at `(p, c)`. -/
theorem lhs_at (t : Fin 2048) (c : Fin 512) (p : Fin 256) :
    dot_S2048x256_S256x512_S2048x512_1_0_0_1_n_n.lhsIdx (ix2 t c) (phonemes.symm p) = ix2 t p :=
  Shape.idx_ext₂ (by rw [lhs_row]) (by rw [lhs_col, phonemes_symm_val])
theorem rhs_at (t : Fin 2048) (c : Fin 512) (p : Fin 256) :
    dot_S2048x256_S256x512_S2048x512_1_0_0_1_n_n.rhsIdx (ix2 t c) (phonemes.symm p) = ix2 p c :=
  Shape.idx_ext₂ (by rw [rhs_row, phonemes_symm_val]) (by rw [rhs_col])

/-! ## The indicator at an index -/

/-- A `[1, 1, 256]` block of words viewed `[1, 256]` and repeated down 2048 rows reads, at `(t, p)`, the block's word `p`. -/
theorem row_of_words (x : Vec Ideal S1x1x256 .i32) (t : Fin 2048) (p : Fin 256) :
    broadcastTo S2048x256 (shapeCast S1x256 (shapeCast S1x256 x shapeCasts_S1x1x256_S1x256) shapeCasts_S1x256_S1x256)
        broadcasts_S1x256_S2048x256 (ix2 t p) = x (ix3 0 0 p) := by
  rw [broadcastTo_1b_ab_apply, shapeCast_self, shapeCast_1ab_ab_apply]

/-- The `[2048, 256]` indicator as numbers, at `(t, p)`: the weight of frame `t` for the interval the two blocks give
    phoneme `p`. The iota along the rows reads the row number; the widened bit read signed is the bit read unsigned. -/
theorem indicator_apply (x1 x2 : Vec Ideal S1x1x256 .i32) (t : Fin 2048) (p : Fin 256) :
    (truncf .bf16 (sitofp (F := Ideal) .f32 (extui 32 (andi
        (cmpi .sge (iota .tc S2048x256 32 [0] iota_S2048x256_d0_w32)
          (broadcastTo S2048x256 (shapeCast S1x256 (shapeCast S1x256 x1 shapeCasts_S1x1x256_S1x256) shapeCasts_S1x256_S1x256) broadcasts_S1x256_S2048x256))
        (cmpi .slt (iota .tc S2048x256 32 [0] iota_S2048x256_d0_w32)
          (broadcastTo S2048x256 (shapeCast S1x256 (shapeCast S1x256 x2 shapeCasts_S1x1x256_S1x256) shapeCasts_S1x256_S1x256) broadcasts_S1x256_S2048x256)))
        natLt_1_32)) bitsLt_bf16_f32 : FVec Ideal S2048x256 .bf16) (ix2 t p)
      = weight (x1 (ix3 0 0 p)) (x2 (ix3 0 0 p)) t := by
  calc _ = FloatOps.sitofp (F := Ideal) .f32 ((IntOp.andi
            (IntOp.cmpi .sge (iota .tc S2048x256 32 [0] iota_S2048x256_d0_w32 (ix2 t p))
              (broadcastTo S2048x256 (shapeCast S1x256 (shapeCast S1x256 x1 shapeCasts_S1x1x256_S1x256) shapeCasts_S1x256_S1x256) broadcasts_S1x256_S2048x256 (ix2 t p)))
            (IntOp.cmpi .slt (iota .tc S2048x256 32 [0] iota_S2048x256_d0_w32 (ix2 t p))
              (broadcastTo S2048x256 (shapeCast S1x256 (shapeCast S1x256 x2 shapeCasts_S1x1x256_S1x256) shapeCasts_S1x256_S1x256) broadcasts_S1x256_S2048x256 (ix2 t p)))).setWidth 32) := rfl
    _ = _ := by
      rw [iota_single_apply, row_of_words, row_of_words, widened_bit]
      rfl

/-! ## The stored value at an index -/

/-- Entry `(u, t, c)` of what the body stores, from the three blocks it loads: the weighted sum over the phonemes. -/
theorem payload_apply (x1 x2 : Vec Ideal S1x1x256 .i32) (x0 : Vec Ideal S1x256x512 .f32) (u : Fin 1) (t : Fin 2048) (c : Fin 512) :
    k0_pay1 (F := Ideal) x1 x2 x0 (ix3 u t c)
      = ∑ p : Fin 256, weight (x1 (ix3 0 0 p)) (x2 (ix3 0 0 p)) t * x0 (ix3 0 p c) := by
  unfold k0_pay1
  dsimp only
  rw [shapeCast_ab_1ab_apply]
  simp only [matmul]
  rw [Ideal.matmul_constant_zero_apply, ← Equiv.sum_comp phonemes.symm]
  refine Finset.sum_congr rfl fun p _ => ?_
  rw [lhs_at, rhs_at, indicator_apply]
  congr 1
  show shapeCast S256x512 x0 shapeCasts_S1x256x512_S256x512 (ix2 p c) = _
  rw [shapeCast_1ab_ab_apply]

/-- The same at any index of the stored block. -/
theorem payload_at (x1 x2 : Vec Ideal S1x1x256 .i32) (x0 : Vec Ideal S1x256x512 .f32) (j : S1x2048x512.Idx) :
    k0_pay1 (F := Ideal) x1 x2 x0 j
      = ∑ p : Fin 256, weight (x1 (ix3 0 0 p)) (x2 (ix3 0 0 p)) (j 1) * x0 (ix3 0 p (j 2)) := by
  obtain ⟨u, t, c, rfl⟩ : ∃ (u : Fin 1) (t : Fin 2048) (c : Fin 512), j = ix3 u t c := ⟨j 0, j 1, j 2, eq_ix3 j⟩
  exact payload_apply x1 x2 x0 u t c

end Cert.KernelIdeal.Hand

end
-- ==== Proof.KernelValue.lean ====
/-
  From the blocks the kernel writes to the whole result array.

  The grid has one point per batch row. At point `b` the three input windows hold batch row `b` of the encoder output and
  of the interval starts and ends (the two `[B, P]` arrays of words, reshaped `[B, 1, P]` before the region by the same
  operations of the log-durations that the specification names), and the output window's block is batch row `b` of the
  result. So what point `b` writes back is row `b` of the regulated array, the 32 blocks tile the result array, and the
  array after the run is the regulated array of the two arguments.
-/
import proofs.«137529_j65644280152320_1_alg».proof.Proof.Gen.KernelIdeal.Value
import proofs.«137529_j65644280152320_1_alg».proof.Proof.KernelPayload
import proofs.«137529_j65644280152320_1_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LengthReg (durations ends starts weight regulated regulatedAt)

variable (m : (ℓ : Loc nD τ sig) → Buf (Elt Ideal) ℓ) (ρ : Dev nD → PrngReg)

/-- Two indices of a rank-3 shape with equal coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (by
    match a with
    | ⟨0, _⟩ => exact h0
    | ⟨1, _⟩ => exact h1
    | ⟨2, _⟩ => exact h2)

/-- A `[a, b]` array reshaped `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The arrays the region finds -/

/-- The kernel program's durations, interval ends and starts of its second argument. -/
def dur (ld : FVec Ideal S32x256x1 .f32) : IVec S32x256 32 := durations bcast_S_S32x256x1 natLt_1_32 shapeCasts_S32x256x1_S32x256 ld
def fin (ld : FVec Ideal S32x256x1 .f32) : IVec S32x256 32 := ends bcast_S_S_ reduceWindows_S32x256_S32x256_w1s1p0_0_w256s1p255_0 h_S_ (dur ld)
def ini (ld : FVec Ideal S32x256x1 .f32) : IVec S32x256 32 := starts (fin ld) (dur ld)

/-- The arguments as launched, and the three arrays the windows stage as the region finds them, at their literal types. -/
abbrev encArg (c : Dev nD) : FVec Ideal S32x256x512 .f32 := m ((c : Thread nD τ).loc main_arg0)
abbrev ldArg (c : Dev nD) : FVec Ideal S32x256x1 .f32 := m ((c : Thread nD τ).loc main_arg1)
abbrev encArr (c : Dev nD) : FVec Ideal S32x256x512 .f32 := V m c main_arg0
abbrev iniArr (c : Dev nD) : IVec S32x1x256 32 := V m c main_v13
abbrev finArr (c : Dev nD) : IVec S32x1x256 32 := V m c main_v14

theorem encArr_eq (c : Dev nD) : encArr m c = encArg m c := V_main_arg0 m c

attribute [local irreducible] Host.reduceWindow in
/-- The interval starts as the region finds them: the starts of the second argument, reshaped `[B, 1, P]`. -/
theorem iniArr_eq (c : Dev nD) : iniArr m c = shapeCast S32x1x256 (ini (ldArg m c)) shapeCasts_S32x256_S32x1x256 := by
  show StableHlo.after (List.flatten [hostOps0, hostOps0_1, hostOps0_2]) (fun b => m (c, b)) (main_v13 : DevRef τ sig) = _
  simp only [hostOps0, hostOps0_1, hostOps0_2, List.flatten_cons, List.flatten_nil, List.append_nil, List.cons_append,
    List.nil_append, StableHlo.after_cons, StableHlo.after_nil]
  rfl

attribute [local irreducible] Host.reduceWindow in
/-- The interval ends likewise. -/
theorem finArr_eq (c : Dev nD) : finArr m c = shapeCast S32x1x256 (fin (ldArg m c)) shapeCasts_S32x256_S32x1x256 := by
  show StableHlo.after (List.flatten [hostOps0, hostOps0_1, hostOps0_2]) (fun b => m (c, b)) (main_v14 : DevRef τ sig) = _
  simp only [hostOps0, hostOps0_1, hostOps0_2, List.flatten_cons, List.flatten_nil, List.append_nil, List.cons_append,
    List.nil_append, StableHlo.after_cons, StableHlo.after_nil]
  rfl

/-! ## The windows' blocks: batch row `b` at grid point `b` -/

theorem hz : (![0, 0, 0] : Fin 3 → Nat) = fun _ => 0 := funext fun a => by fin_cases a <;> rfl

/-- The printed index maps, decided over the grid: every window's block index at point `t` is `(t, 0, 0)`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Grid point `t` as a batch row. -/
def row (t : Fin cfg0.N) : Fin 32 := ⟨t.val, by have h := t.isLt; have hN : cfg0.N = 32 := N_0; omega⟩

/-- The encoder window's block at point `t` is batch row `t` of the encoder output. -/
theorem enc_block (c : Dev nD) (t : Fin cfg0.N) (p : Fin 256) (ch : Fin 512) :
    (iblk m c 0 t : Vec Ideal S1x256x512 .f32) (ix3 (0 : Fin 1) p ch) = encArg m c (ix3 (row t) p ch) := by
  rw [← encArr_eq]
  show V m c main_arg0 (((cfg0.win 0).blk t).view.emb (ix3 (0 : Fin 1) p ch)) = V m c main_arg0 (ix3 (row t) p ch)
  refine congrArg (V m c main_arg0) ?_
  obtain ⟨e0, e1, e2, -⟩ := block_index t
  refine idx_ext₃ ?_ ?_ ?_
  · show win0_0.index t (0 : Fin 3) * 1 + 1 * ((0 : Fin 1) : ℕ) = t.val
    rw [e0]; simp
  · show win0_0.index t (1 : Fin 3) * 256 + 1 * p.val = p.val
    rw [e1]; omega
  · show win0_0.index t (2 : Fin 3) * 512 + 1 * ch.val = ch.val
    rw [e2]; omega

/-- The starts window's block at point `t` holds batch row `t`'s interval starts. -/
theorem ini_block (c : Dev nD) (t : Fin cfg0.N) (p : Fin 256) :
    (iblk m c 1 t : Vec Ideal S1x1x256 .i32) (ix3 (0 : Fin 1) (0 : Fin 1) p) = ini (ldArg m c) (ix2 (row t) p) := by
  have h : (iblk m c 1 t : Vec Ideal S1x1x256 .i32) (ix3 (0 : Fin 1) (0 : Fin 1) p) = iniArr m c (ix3 (row t) (0 : Fin 1) p) := by
    show V m c main_v13 (((cfg0.win 1).blk t).view.emb (ix3 (0 : Fin 1) (0 : Fin 1) p)) = V m c main_v13 (ix3 (row t) (0 : Fin 1) p)
    refine congrArg (V m c main_v13) ?_
    obtain ⟨-, -, -, e0, e1, e2, -⟩ := block_index t
    refine idx_ext₃ ?_ ?_ ?_
    · show win0_1.index t (0 : Fin 3) * 1 + 1 * ((0 : Fin 1) : ℕ) = t.val
      rw [e0]; simp
    · show win0_1.index t (1 : Fin 3) * 1 + 1 * ((0 : Fin 1) : ℕ) = ((0 : Fin 1) : ℕ)
      rw [e1]; simp
    · show win0_1.index t (2 : Fin 3) * 256 + 1 * p.val = p.val
      rw [e2]; omega
  rw [h, iniArr_eq, shapeCast_ab_a1b_apply]

/-- The ends window's block at point `t` holds batch row `t`'s interval ends. -/
theorem fin_block (c : Dev nD) (t : Fin cfg0.N) (p : Fin 256) :
    (iblk m c 2 t : Vec Ideal S1x1x256 .i32) (ix3 (0 : Fin 1) (0 : Fin 1) p) = fin (ldArg m c) (ix2 (row t) p) := by
  have h : (iblk m c 2 t : Vec Ideal S1x1x256 .i32) (ix3 (0 : Fin 1) (0 : Fin 1) p) = finArr m c (ix3 (row t) (0 : Fin 1) p) := by
    show V m c main_v14 (((cfg0.win 2).blk t).view.emb (ix3 (0 : Fin 1) (0 : Fin 1) p)) = V m c main_v14 (ix3 (row t) (0 : Fin 1) p)
    refine congrArg (V m c main_v14) ?_
    obtain ⟨-, -, -, -, -, -, e0, e1, e2, -⟩ := block_index t
    refine idx_ext₃ ?_ ?_ ?_
    · show win0_2.index t (0 : Fin 3) * 1 + 1 * ((0 : Fin 1) : ℕ) = t.val
      rw [e0]; simp
    · show win0_2.index t (1 : Fin 3) * 1 + 1 * ((0 : Fin 1) : ℕ) = ((0 : Fin 1) : ℕ)
      rw [e1]; simp
    · show win0_2.index t (2 : Fin 3) * 256 + 1 * p.val = p.val
      rw [e2]; omega
  rw [h, finArr_eq, shapeCast_ab_a1b_apply]

/-! ## What a point writes back, the cover, the array after the run -/

/-- The result array the kernel's program ends with: the regulated array of its two arguments. -/
def value (c : Dev nD) : S32x2048x512.Idx → EReal :=
  regulated (encArg m c) (ini (ldArg m c)) (fin (ldArg m c))

/-- Entry `j` of what the body stores at point `t` is the regulated array at batch row `t`, frame `j 1`, channel `j 2`. -/
theorem block_value (c : Dev nD) (t : Fin cfg0.N) (j : S1x2048x512.Idx) :
    k0_pay1 (F := Ideal) (iblk m c 1 t) (iblk m c 2 t) (iblk m c 0 t) j = value m c (ix3 (row t) (j 1) (j 2)) := by
  refine (payload_at (iblk m c 1 t) (iblk m c 2 t) (iblk m c 0 t) j).trans ?_
  show _ = regulatedAt (encArg m c) (ini (ldArg m c)) (fin (ldArg m c)) (row t) (j 1) (j 2)
  unfold regulatedAt
  refine Finset.sum_congr rfl fun p _ => ?_
  rw [ini_block, fin_block]
  congr 1
  exact enc_block m c t p (j 2)

/-- The output window's block at point `t` places its entry `j` at batch row `t` of the result array. -/
theorem out_emb (t : Fin cfg0.N) (j : S1x2048x512.Idx) :
    ((cfg0.win 3).blk t).view.emb j = (ix3 (row t) (j 1) (j 2) : S32x2048x512.Idx) := by
  obtain ⟨-, -, -, -, -, -, -, -, -, e0, e1, e2⟩ := block_index t
  refine idx_ext₃ ?_ ?_ ?_
  · show win0_3.index t (0 : Fin 3) * 1 + 1 * (j 0).val = t.val
    have : (j 0).val < 1 := (j 0).isLt
    rw [e0]; omega
  · show win0_3.index t (1 : Fin 3) * 2048 + 1 * (j 1).val = (j 1).val
    rw [e1]; omega
  · show win0_3.index t (2 : Fin 3) * 512 + 1 * (j 2).val = (j 2).val
    rw [e2]; omega

/-- WHAT POINT `t` WRITES BACK is block `t` of the regulated array. -/
theorem flushed_eq (c : Dev nD) (t : Fin cfg0.N) :
    (dats m 0 c).flushed 3 t = ((cfg0.win 3).blk t).view.read (Elt Ideal) (value m c) := by
  rw [flushed3]
  unfold out0_3
  rw [View.canon_unit_zero hz]
  simp only [View.ld_unit_zero (S := S1x1x256) hz, View.ld_unit_zero (S := S1x256x512) hz]
  funext j
  show k0_pay1 (F := Ideal) (iblk m c 1 t) (iblk m c 2 t) (iblk m c 0 t) j = value m c (((cfg0.win 3).blk t).view.emb j)
  rw [out_emb]
  exact block_value m c t j

/-- An index of the result array is in point `t`'s block iff each coordinate is in the block's range on its axis. -/
theorem mem_block (t : Fin cfg0.N) (i : S32x2048x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v15).slice (win0_3.rect t)).set ↔ _
  rw [View.set_slice_whole, Rect.mem_set_unit]
  exact Iff.rfl

/-- Every index of the result array is in the block of the point of its batch row. -/
theorem cover (i : S32x2048x512.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 512 := (i 2).isLt
  have hN : cfg0.N = 32 := N_0
  let t : Fin cfg0.N := ⟨(i 0).val, by omega⟩
  refine ⟨t, flush0_3 t, ?_⟩
  rw [mem_block]
  obtain ⟨-, -, -, -, -, -, -, -, -, e0, e1, e2⟩ := block_index t
  intro a
  match a with
  | ⟨0, _⟩ => show win0_3.index t (0 : Fin 3) * 1 ≤ (i 0).val ∧ (i 0).val < win0_3.index t (0 : Fin 3) * 1 + 1
              rw [e0]; show (i 0).val * 1 ≤ (i 0).val ∧ (i 0).val < (i 0).val * 1 + 1; omega
  | ⟨1, _⟩ => show win0_3.index t (1 : Fin 3) * 2048 ≤ (i 1).val ∧ (i 1).val < win0_3.index t (1 : Fin 3) * 2048 + 2048
              rw [e1]; omega
  | ⟨2, _⟩ => show win0_3.index t (2 : Fin 3) * 512 ≤ (i 2).val ∧ (i 2).val < win0_3.index t (2 : Fin 3) * 512 + 512
              rw [e2]; omega

/-- THE ARRAY after the run is the regulated array of the arguments. -/
theorem final (c : Dev nD) : (dats m 0 c).arrAt 3 cfg0.N = value m c :=
  (dats m 0 c).arrAt_eq_of_cover 3 (value m c) (fun t _ => flushed_eq m c t) cover

/-- The kernel program's run, read: the result array at the regulated array of the arguments, the arguments unchanged. -/
theorem run : θ_run defs (onTc (τ := τ) (main (F := Ideal))) ⟨m, fun _ => 0, ρ⟩ fun r => ∀ c : Dev nD,
      r.2.mem ((c : Thread nD τ).loc main_v15) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefRun.lean ====
/-
  The reference program's run, read back: its @main is a straight line of thirty-one host operations (the running sum's
  three written at its call, over the call's own buffers), so every weakly fair execution ends with each buffer at the
  operations' composed term of the two arguments. The result buffer's term is the batched product

      Σ_p  align[b,t,p] · enc[b,p,c] ,      align[b,t,p] = the bit  s[b,p] ≤ t < e[b,p]  read as a number,

  with `e`, `s` the interval ends and starts of the durations of the log-durations (Spec.lean), the frame number `t` an
  iota along the middle axis, and starts, ends and frame numbers each broadcast to `[B, T, P]` before they are compared.
-/
import proofs.«137529_j65644280152320_1_alg».proof.Proof.Gen.ReferenceIdeal
import proofs.«137529_j65644280152320_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LengthReg (durations ends starts)

variable {F : FTy → Type} [FloatOps F]

/-- @main's operations in order; the running sum's constant, its broadcast and its window sum stand where @main calls it. -/
abbrev ops : List (HloOp τ sig (Elt F)) :=
  [ StableHlo.nullary main_cst (constant S_ .f32 0x00000000#32),
    StableHlo.unary main_cst main_v0 (broadcastInDim S32x256x1 ![] bcast_S_S32x256x1 : (⟨S_, .f32⟩ : BufTy).Contents (Elt F) → (⟨S32x256x1, .f32⟩ : BufTy).Contents (Elt F)),
    StableHlo.binary main_arg1 main_v0 main_v1 (cmpf .ogt : (⟨S32x256x1, .f32⟩ : BufTy).Contents (Elt F) → (⟨S32x256x1, .f32⟩ : BufTy).Contents (Elt F) → (⟨S32x256x1, .i1⟩ : BufTy).Contents (Elt F)),
    StableHlo.unary main_v1 main_v2 ((extui 32 · natLt_1_32) : (⟨S32x256x1, .i1⟩ : BufTy).Contents (Elt F) → (⟨S32x256x1, .i32⟩ : BufTy).Contents (Elt F)),
    StableHlo.nullary main_cst_0 (constant S_ .f32 0x40000000#32),
    StableHlo.unary main_cst_0 main_v3 (broadcastInDim S32x256x1 ![] bcast_S_S32x256x1 : (⟨S_, .f32⟩ : BufTy).Contents (Elt F) → (⟨S32x256x1, .f32⟩ : BufTy).Contents (Elt F)),
    StableHlo.binary main_v3 main_arg1 main_v4 (Host.powf : (⟨S32x256x1, .f32⟩ : BufTy).Contents (Elt F) → (⟨S32x256x1, .f32⟩ : BufTy).Contents (Elt F) → (⟨S32x256x1, .f32⟩ : BufTy).Contents (Elt F)),
    StableHlo.nullary main_cst_1 (constant S_ .f32 0x38D1B717#32),
    StableHlo.unary main_cst_1 main_v5 (broadcastInDim S32x256x1 ![] bcast_S_S32x256x1 : (⟨S_, .f32⟩ : BufTy).Contents (Elt F) → (⟨S32x256x1, .f32⟩ : BufTy).Contents (Elt F)),
    StableHlo.binary main_v4 main_v5 main_v6 (addf : (⟨S32x256x1, .f32⟩ : BufTy).Contents (Elt F) → (⟨S32x256x1, .f32⟩ : BufTy).Contents (Elt F) → (⟨S32x256x1, .f32⟩ : BufTy).Contents (Elt F)),
    StableHlo.unary main_v6 main_v7 (Host.floor : (⟨S32x256x1, .f32⟩ : BufTy).Contents (Elt F) → (⟨S32x256x1, .f32⟩ : BufTy).Contents (Elt F)),
    StableHlo.unary main_v7 main_v8 (fptosi 32 : (⟨S32x256x1, .f32⟩ : BufTy).Contents (Elt F) → (⟨S32x256x1, .i32⟩ : BufTy).Contents (Elt F)),
    StableHlo.binary main_v8 main_v2 main_v9 (muli : (⟨S32x256x1, .i32⟩ : BufTy).Contents (Elt F) → (⟨S32x256x1, .i32⟩ : BufTy).Contents (Elt F) → (⟨S32x256x1, .i32⟩ : BufTy).Contents (Elt F)),
    StableHlo.reshape main_v9 main_v10 rfl shapeCasts_S32x256x1_S32x256,
    StableHlo.TRef.nullary main_call0.call0.c (constantI S_ 32 0#32),
    StableHlo.TRef.unary main_call0.call0.c main_call0.call0.v0 (broadcastInDim S_ ![] bcast_S_S_),
    StableHlo.TRef.binary (.of main_v10) main_call0.call0.v0 main_call0.call0.v1 (fun x v => Host.reduceWindow IntOp.addi ![1, 256] ![1, 1] ![0, 255] ![0, 0] x v reduceWindows_S32x256_S32x256_w1s1p0_0_w256s1p255_0 h_S_),
    StableHlo.binary main_v11 main_v10 main_v12 (subi : (⟨S32x256, .i32⟩ : BufTy).Contents (Elt F) → (⟨S32x256, .i32⟩ : BufTy).Contents (Elt F) → (⟨S32x256, .i32⟩ : BufTy).Contents (Elt F)),
    StableHlo.nullary main_v13 (iotaInDim S2048 32 0),
    StableHlo.unary main_v13 main_v14 (broadcastInDim S1x2048x1 ![1] bcast_S2048_S1x2048x1_1 : (⟨S2048, .i32⟩ : BufTy).Contents (Elt F) → (⟨S1x2048x1, .i32⟩ : BufTy).Contents (Elt F)),
    StableHlo.unary main_v12 main_v15 (broadcastInDim S32x1x256 ![0, 2] bcast_S32x256_S32x1x256_0_2 : (⟨S32x256, .i32⟩ : BufTy).Contents (Elt F) → (⟨S32x1x256, .i32⟩ : BufTy).Contents (Elt F)),
    StableHlo.unary main_v14 main_v16 (broadcastInDim S32x2048x256 ![0, 1, 2] bcast_S1x2048x1_S32x2048x256_0_1_2 : (⟨S1x2048x1, .i32⟩ : BufTy).Contents (Elt F) → (⟨S32x2048x256, .i32⟩ : BufTy).Contents (Elt F)),
    StableHlo.unary main_v15 main_v17 (broadcastInDim S32x2048x256 ![0, 1, 2] bcast_S32x1x256_S32x2048x256_0_1_2 : (⟨S32x1x256, .i32⟩ : BufTy).Contents (Elt F) → (⟨S32x2048x256, .i32⟩ : BufTy).Contents (Elt F)),
    StableHlo.binary main_v16 main_v17 main_v18 (cmpi .sge : (⟨S32x2048x256, .i32⟩ : BufTy).Contents (Elt F) → (⟨S32x2048x256, .i32⟩ : BufTy).Contents (Elt F) → (⟨S32x2048x256, .i1⟩ : BufTy).Contents (Elt F)),
    StableHlo.unary main_v11 main_v19 (broadcastInDim S32x1x256 ![0, 2] bcast_S32x256_S32x1x256_0_2 : (⟨S32x256, .i32⟩ : BufTy).Contents (Elt F) → (⟨S32x1x256, .i32⟩ : BufTy).Contents (Elt F)),
    StableHlo.unary main_v14 main_v20 (broadcastInDim S32x2048x256 ![0, 1, 2] bcast_S1x2048x1_S32x2048x256_0_1_2 : (⟨S1x2048x1, .i32⟩ : BufTy).Contents (Elt F) → (⟨S32x2048x256, .i32⟩ : BufTy).Contents (Elt F)),
    StableHlo.unary main_v19 main_v21 (broadcastInDim S32x2048x256 ![0, 1, 2] bcast_S32x1x256_S32x2048x256_0_1_2 : (⟨S32x1x256, .i32⟩ : BufTy).Contents (Elt F) → (⟨S32x2048x256, .i32⟩ : BufTy).Contents (Elt F)),
    StableHlo.binary main_v20 main_v21 main_v22 (cmpi .slt : (⟨S32x2048x256, .i32⟩ : BufTy).Contents (Elt F) → (⟨S32x2048x256, .i32⟩ : BufTy).Contents (Elt F) → (⟨S32x2048x256, .i1⟩ : BufTy).Contents (Elt F)),
    StableHlo.binary main_v18 main_v22 main_v23 (andi : (⟨S32x2048x256, .i1⟩ : BufTy).Contents (Elt F) → (⟨S32x2048x256, .i1⟩ : BufTy).Contents (Elt F) → (⟨S32x2048x256, .i1⟩ : BufTy).Contents (Elt F)),
    StableHlo.unary main_v23 main_v24 (uitofp .f32 : (⟨S32x2048x256, .i1⟩ : BufTy).Contents (Elt F) → (⟨S32x2048x256, .f32⟩ : BufTy).Contents (Elt F)),
    StableHlo.binary main_v24 main_arg0 main_v25 ((fun l r => Host.dotGeneral dot_S32x2048x256_S32x256x512_S32x2048x512_2_1_1_2_0_0 none l r) : (⟨S32x2048x256, .f32⟩ : BufTy).Contents (Elt F) → (⟨S32x256x512, .f32⟩ : BufTy).Contents (Elt F) → (⟨S32x2048x512, .f32⟩ : BufTy).Contents (Elt F)) ]

set_option maxRecDepth 1024 in
/-- @main is that straight line once the called functions are unfolded and the sequencing reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., binary_bufs_sub .., unary_bufs_sub .., binary_bufs_sub ..⟩

/-! ## The result buffer's term -/

/-- The frame numbers `0 … 2047` along the middle axis, broadcast to `[B, T, P]`. -/
def frames : IVec S32x2048x256 32 :=
  broadcastInDim S32x2048x256 ![0, 1, 2] bcast_S1x2048x1_S32x2048x256_0_1_2
    (broadcastInDim S1x2048x1 ![1] bcast_S2048_S1x2048x1_1 (iotaInDim S2048 32 0))

/-- A per-phoneme word `[B, P]` repeated over the frames, `[B, T, P]`. -/
def overFrames (x : IVec S32x256 32) : IVec S32x2048x256 32 :=
  broadcastInDim S32x2048x256 ![0, 1, 2] bcast_S32x1x256_S32x2048x256_0_1_2
    (broadcastInDim S32x1x256 ![0, 2] bcast_S32x256_S32x1x256_0_2 x)

/-- The alignment: `1` where frame `t` lies in phoneme `p`'s interval, else `0`. -/
def alignment (s e : IVec S32x256 32) : FVec Ideal S32x2048x256 .f32 :=
  uitofp .f32 (andi (cmpi .sge frames (overFrames s)) (cmpi .slt frames (overFrames e)))

/-- The reference's durations, interval ends and starts of its second argument. -/
def dur (ld : FVec Ideal S32x256x1 .f32) : IVec S32x256 32 := durations bcast_S_S32x256x1 natLt_1_32 shapeCasts_S32x256x1_S32x256 ld
def fin (ld : FVec Ideal S32x256x1 .f32) : IVec S32x256 32 := ends bcast_S_S_ reduceWindows_S32x256_S32x256_w1s1p0_0_w256s1p255_0 h_S_ (dur ld)
def ini (ld : FVec Ideal S32x256x1 .f32) : IVec S32x256 32 := starts (fin ld) (dur ld)

/-- The result: the alignment times the encoder output, batch row by batch row. -/
def result (enc : FVec Ideal S32x256x512 .f32) (ld : FVec Ideal S32x256x1 .f32) : FVec Ideal S32x2048x512 .f32 :=
  Host.dotGeneral dot_S32x2048x256_S32x256x512_S32x2048x512_2_1_1_2_0_0 none (alignment (ini ld) (fin ld)) enc

attribute [local irreducible] Host.reduceWindow FloatOps.dotGeneral in
set_option maxRecDepth 8192 in
/-- The fold of the operations at the result buffer is `result` of the two arguments' contents: the fold unrolled, each
    operation's result read where it is written and passed over elsewhere; the window sum and the product stay folded. -/
theorem out_eq (V : Valuation τ sig (Elt Ideal)) :
    after ops V (main_v25 : DevRef τ sig) = result (V (main_arg0 : DevRef τ sig)) (V (main_arg1 : DevRef τ sig)) := by
  simp only [after_cons, after_nil]
  rfl

theorem arg0_eq (V : Valuation τ sig (Elt Ideal)) : after ops V (main_arg0 : DevRef τ sig) = V (main_arg0 : DevRef τ sig) := by
  simp only [after_cons, after_nil]
  rfl

theorem arg1_eq (V : Valuation τ sig (Elt Ideal)) : after ops V (main_arg1 : DevRef τ sig) = V (main_arg1 : DevRef τ sig) := by
  simp only [after_cons, after_nil]
  rfl

/-- On every device, from any memory with zero counters: every weakly fair execution of @main terminates with the result
    buffer at `result` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.Hand

end
-- ==== Proof.RefValue.lean ====
/-
  The reference's result is the regulated array of its arguments.

  Its result is one batched product: the `[B, T, P]` alignment times the `[B, P, C]` encoder output, the batch axis
  kept, the phoneme axis contracted. Read at `(b, t, c)` that is the sum over the phonemes `p` of the alignment at
  `(b, t, p)` times the encoder output at `(b, p, c)`; and the alignment there is the bit
  `s[b,p] ≤ t < e[b,p]` read as a number, because the frame numbers broadcast to `[B, T, P]` read `t` and the starts and
  ends broadcast over the frames read their `(b, p)` word. That is the specification's sum, term by term.
-/
import proofs.«137529_j65644280152320_1_alg».proof.Proof.RefRun
import proofs.«137529_j65644280152320_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx
open Cert.LengthReg (inside weight regulated regulatedAt)

/-- Two indices of a rank-3 shape with equal coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (by
    match a with
    | ⟨0, _⟩ => exact h0
    | ⟨1, _⟩ => exact h1
    | ⟨2, _⟩ => exact h2)

/-! ## The batched product's operand indices: (batch, frame, phoneme) and (batch, phoneme, channel) -/

theorem lhs_batch (j : S32x2048x512.Idx) (k : dot_S32x2048x256_S32x256x512_S32x2048x512_2_1_1_2_0_0.contr.Idx) :
    (dot_S32x2048x256_S32x256x512_S32x2048x512_2_1_1_2_0_0.lhsIdx j k 0 : ℕ) = j 0 := by
  simp [DotDims.lhsIdx, dot_S32x2048x256_S32x256x512_S32x2048x512_2_1_1_2_0_0]; rfl
theorem lhs_frame (j : S32x2048x512.Idx) (k : dot_S32x2048x256_S32x256x512_S32x2048x512_2_1_1_2_0_0.contr.Idx) :
    (dot_S32x2048x256_S32x256x512_S32x2048x512_2_1_1_2_0_0.lhsIdx j k 1 : ℕ) = j 1 := by
  simp [DotDims.lhsIdx, dot_S32x2048x256_S32x256x512_S32x2048x512_2_1_1_2_0_0]; rfl
theorem lhs_phoneme (j : S32x2048x512.Idx) (k : dot_S32x2048x256_S32x256x512_S32x2048x512_2_1_1_2_0_0.contr.Idx) :
    (dot_S32x2048x256_S32x256x512_S32x2048x512_2_1_1_2_0_0.lhsIdx j k 2 : ℕ) = k ⟨0, by decide⟩ := by
  simp [DotDims.lhsIdx, dot_S32x2048x256_S32x256x512_S32x2048x512_2_1_1_2_0_0]; rfl
theorem rhs_batch (j : S32x2048x512.Idx) (k : dot_S32x2048x256_S32x256x512_S32x2048x512_2_1_1_2_0_0.contr.Idx) :
    (dot_S32x2048x256_S32x256x512_S32x2048x512_2_1_1_2_0_0.rhsIdx j k 0 : ℕ) = j 0 := by
  simp [DotDims.rhsIdx, dot_S32x2048x256_S32x256x512_S32x2048x512_2_1_1_2_0_0]; rfl
theorem rhs_phoneme (j : S32x2048x512.Idx) (k : dot_S32x2048x256_S32x256x512_S32x2048x512_2_1_1_2_0_0.contr.Idx) :
    (dot_S32x2048x256_S32x256x512_S32x2048x512_2_1_1_2_0_0.rhsIdx j k 1 : ℕ) = k ⟨0, by decide⟩ := by
  simp [DotDims.rhsIdx, dot_S32x2048x256_S32x256x512_S32x2048x512_2_1_1_2_0_0]; rfl
theorem rhs_channel (j : S32x2048x512.Idx) (k : dot_S32x2048x256_S32x256x512_S32x2048x512_2_1_1_2_0_0.contr.Idx) :
    (dot_S32x2048x256_S32x256x512_S32x2048x512_2_1_1_2_0_0.rhsIdx j k 2 : ℕ) = j 2 := by
  simp [DotDims.rhsIdx, dot_S32x2048x256_S32x256x512_S32x2048x512_2_1_1_2_0_0]; rfl

/-- The one contracted axis has the 256 phonemes as its positions. -/
def phonemes : dot_S32x2048x256_S32x256x512_S32x2048x512_2_1_1_2_0_0.contr.Idx ≃ Fin 256 :=
  contrEquiv1 dot_S32x2048x256_S32x256x512_S32x2048x512_2_1_1_2_0_0 256 (by decide) (by decide)

theorem phonemes_symm_val (p : Fin 256) : ((phonemes.symm p) ⟨0, by decide⟩ : ℕ) = p.val :=
  contrEquiv1_symm_val dot_S32x2048x256_S32x256x512_S32x2048x512_2_1_1_2_0_0 256 (by decide) (by decide) p

theorem lhs_at (b : Fin 32) (t : Fin 2048) (c : Fin 512) (p : Fin 256) :
    dot_S32x2048x256_S32x256x512_S32x2048x512_2_1_1_2_0_0.lhsIdx (ix3 b t c) (phonemes.symm p) = ix3 b t p :=
  idx_ext₃ (by rw [lhs_batch]) (by rw [lhs_frame]) (by rw [lhs_phoneme, phonemes_symm_val])
theorem rhs_at (b : Fin 32) (t : Fin 2048) (c : Fin 512) (p : Fin 256) :
    dot_S32x2048x256_S32x256x512_S32x2048x512_2_1_1_2_0_0.rhsIdx (ix3 b t c) (phonemes.symm p) = ix3 b p c :=
  idx_ext₃ (by rw [rhs_batch]) (by rw [rhs_phoneme, phonemes_symm_val]) (by rw [rhs_channel])

/-! ## The alignment at an index -/

/-- The frame numbers broadcast to `[B, T, P]` read, at `(b, t, p)`, the word `t`. -/
theorem frames_apply (b : Fin 32) (t : Fin 2048) (p : Fin 256) : frames (ix3 b t p) = BitVec.ofNat 32 t.val := by
  unfold frames
  rw [broadcastInDim_apply _ _ _ (ix3 b t p) (ix3 (0 : Fin 1) t (0 : Fin 1)) (fun a => by
    match a with
    | ⟨0, _⟩ => rfl
    | ⟨1, _⟩ => rfl
    | ⟨2, _⟩ => rfl)]
  rw [broadcastInDim_apply _ _ _ (ix3 (0 : Fin 1) t (0 : Fin 1)) (ix1 t) (fun a => by
    match a with
    | ⟨0, _⟩ => rfl)]
  rfl

/-- A per-phoneme word repeated over the frames reads, at `(b, t, p)`, the word of `(b, p)`. -/
theorem overFrames_apply (x : IVec S32x256 32) (b : Fin 32) (t : Fin 2048) (p : Fin 256) :
    overFrames x (ix3 b t p) = x (ix2 b p) := by
  unfold overFrames
  rw [broadcastInDim_apply _ _ _ (ix3 b t p) (ix3 b (0 : Fin 1) p) (fun a => by
    match a with
    | ⟨0, _⟩ => rfl
    | ⟨1, _⟩ => rfl
    | ⟨2, _⟩ => rfl)]
  rw [broadcastInDim_apply _ _ _ (ix3 b (0 : Fin 1) p) (ix2 b p) (fun a => by
    match a with
    | ⟨0, _⟩ => rfl
    | ⟨1, _⟩ => rfl)]

/-- The alignment at `(b, t, p)` is the weight of frame `t` for phoneme `p`'s interval in batch row `b`. -/
theorem alignment_apply (s e : IVec S32x256 32) (b : Fin 32) (t : Fin 2048) (p : Fin 256) :
    alignment s e (ix3 b t p) = weight (s (ix2 b p)) (e (ix2 b p)) t := by
  calc _ = FloatOps.uitofp (F := Ideal) .f32 (IntOp.andi
            (IntOp.cmpi .sge (frames (ix3 b t p)) (overFrames s (ix3 b t p)))
            (IntOp.cmpi .slt (frames (ix3 b t p)) (overFrames e (ix3 b t p)))) := rfl
    _ = _ := by
      rw [frames_apply, overFrames_apply, overFrames_apply]
      rfl

/-! ## The result is the regulated array -/

theorem result_eq (enc : FVec Ideal S32x256x512 .f32) (ld : FVec Ideal S32x256x1 .f32) :
    result enc ld = regulated enc (ini ld) (fin ld) := by
  funext i
  obtain ⟨b, t, c, rfl⟩ : ∃ (b : Fin 32) (t : Fin 2048) (c : Fin 512), i = ix3 b t c := ⟨i 0, i 1, i 2, eq_ix3 i⟩
  show result enc ld (ix3 b t c) = regulatedAt enc (ini ld) (fin ld) b t c
  unfold result regulatedAt
  simp only [Host.dotGeneral]
  rw [Ideal.dotGeneral_apply, ← Equiv.sum_comp phonemes.symm]
  refine Finset.sum_congr rfl fun p _ => ?_
  rw [lhs_at, rhs_at, alignment_apply]

end Cert.ReferenceIdeal.Hand

end
-- ==== Proof.lean ====
/-
  Length regulation by a one-hot alignment product, against its jnp reference: equal over the extended reals.

  Both programs turn the log-durations `ld[b,p]` into integer durations `d = ⌊2^ld + 1e-4⌋·[ld > 0]`, their running sums
  `e` along the phonemes and the starts `s = e - d`, by the same host operations; both then compute

      out[b,t,c] = Σ_p  [ s[b,p] ≤ t < e[b,p] ] · enc[b,p,c] ,      t < 2048 .

  The kernel does it one batch row per grid point: an iota down the rows compared with the row's starts and ends gives the
  `[T, P]` indicator, which it turns into numbers and multiplies into the row's `[P, C]` encoder block with a zero
  accumulator (the two changes of float format on the way are the identity on the extended reals). The reference builds the
  whole `[B, T, P]` indicator and takes one batched product. Read at an index both are the same sum over `p : Fin 256` of
  the same terms (Spec.lean's `regulated`): the only difference in a term is a bit widened to a word and read signed against
  the bit read unsigned, which agree (`widened_bit`). No law of the extended reals beyond the equality of equal sums is used,
  so the precondition (finite inputs) is never opened.

  The modules: Spec.lean (the function), KernelPayload.lean (the body's stored value at an index), KernelValue.lean (from the
  blocks to the result array: the kernel program's run), RefRun.lean (the reference program's run), RefValue.lean (its
  result is the function). The three frames: the two kernel programs' are the generated frame certificates, the reference's
  is its run with the result forgotten. The idealization rewrote nothing, so `preserves` asks nothing.
-/
import proofs.«137529_j65644280152320_1_alg».proof.Defs
import proofs.«137529_j65644280152320_1_alg».proof.Proof.Gen.Kernel
import proofs.«137529_j65644280152320_1_alg».proof.Proof.Gen.Kernel.Frame
import proofs.«137529_j65644280152320_1_alg».proof.Proof.Gen.KernelIdeal
import proofs.«137529_j65644280152320_1_alg».proof.Proof.Gen.KernelIdeal.Frame
import proofs.«137529_j65644280152320_1_alg».proof.Proof.Gen.ReferenceIdeal
import proofs.«137529_j65644280152320_1_alg».proof.Proof.Gen.Pre_finite_inputs
import proofs.«137529_j65644280152320_1_alg».proof.Proof.KernelValue
import proofs.«137529_j65644280152320_1_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the two arguments both programs end with the regulated array of those arguments: the
    kernel's by its blocks (`Hand.run`), the reference's by its batched product (`result_eq`); the starts and ends in
    both are the same operations of the same log-durations. -/
theorem algebraic : Cert.algebraic_KernelIdeal_ReferenceIdeal := by
  intro m ρ m' ρ' _ hagree
  refine ⟨fun c => Cert.KernelIdeal.Hand.value m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [Cert.ReferenceIdeal.Hand.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
